-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S262144 : Shape := ⟨1, ![262144]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S262144 : S_.BroadcastsInDim S262144 (![] : Fin 0 → Fin S262144.rank)
  reducesTo_S262144_S_d0 : S262144.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : IVec S262144 32) (main_arg4 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .slt main_arg3 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  let main_c_7 : IVec S_ 32 := constantI S_ 32 0#32
  let main_v21 : IVec S262144 32 := broadcastInDim S262144 ![] bcast_S_S262144 main_c_7
  let main_v22 : IVec S262144 1 := cmpi .sge main_arg4 main_v21
  let main_c_8 : IVec S_ 32 := constantI S_ 32 4096#32
  let main_v23 : IVec S262144 32 := broadcastInDim S262144 ![] bcast_S_S262144 main_c_8
  let main_v24 : IVec S262144 1 := cmpi .slt main_arg4 main_v23
  let main_v25 : IVec S262144 1 := andi main_v22 main_v24
  let main_c_9 : IVec S_ 1 := constantI S_ 1 1#1
  let main_v26 : IVec S_ 1 := (fun x v => Host.reduce IntOp.andi x v reducesTo_S262144_S_d0 h_S_) main_v25 main_c_9
  let main_v27 : IVec S_ 1 := andi main_v20 main_v26
  main_v27

def fn {F : FTy → Type} [FloatOps F] (main_arg0 : FVec F S1024x4096 .f32) (main_arg1 : FVec F S262144 .f32) (main_arg2 : FVec F S4096 .f32) (main_arg3 : IVec S262144 32) (main_arg4 : IVec S262144 32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg3 main_v14
  let main_c_5 : IVec S_ 32 := constantI S_ 32 4096#32
  fn_part1 (F := F) main_arg3 main_arg4 main_v13 main_v15 main_c_5
-- ==== Kernel.lean ====
abbrev S1024x4096 : Shape := ⟨2, ![1024, 4096]⟩
abbrev S262144 : Shape := ⟨1, ![262144]⟩
abbrev S4096 : Shape := ⟨1, ![4096]⟩
abbrev S_ : Shape := ⟨0, ![]⟩
abbrev S16777216 : Shape := ⟨1, ![16777216]⟩
abbrev S262144x1 : Shape := ⟨2, ![262144, 1]⟩
abbrev S4096x4096 : Shape := ⟨2, ![4096, 4096]⟩
abbrev S1x4096 : Shape := ⟨2, ![1, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 25
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S262144, .f32⟩
  | .hbm, ⟨2, _⟩ => ⟨S4096, .f32⟩
  | .hbm, ⟨3, _⟩ => ⟨S262144, .i32⟩
  | .hbm, ⟨4, _⟩ => ⟨S262144, .i32⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S262144, .i32⟩
  | .hbm, ⟨9, _⟩ => ⟨S_, .f32⟩
  | .hbm, ⟨10, _⟩ => ⟨S16777216, .f32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S16777216, .f32⟩
  | .hbm, ⟨20, _⟩ => ⟨S4096x4096, .f32⟩
  | .hbm, ⟨21, _⟩ => ⟨S4096x4096, .bf16⟩
  | .hbm, ⟨22, _⟩ => ⟨S1024x4096, .bf16⟩
  | .hbm, ⟨23, _⟩ => ⟨S1x4096, .f32⟩
  | .hbm, ⟨24, _⟩ => ⟨S1024x4096, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S262144 : S_.BroadcastsInDim S262144 (![] : Fin 0 → Fin S262144.rank)
  bcast_S_S16777216 : S_.BroadcastsInDim S16777216 (![] : Fin 0 → Fin S16777216.rank)
  bcast_S262144_S262144x1_0 : S262144.BroadcastsInDim S262144x1 (![0] : Fin 1 → Fin S262144x1.rank)
  shapeCasts_S16777216_S4096x4096 : S16777216.ShapeCasts S4096x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  scatter_S16777216_S262144x1_S262144_n_0_0_1_wf : ScatterDims.WF S16777216 S262144x1 S262144 [] [0] [0] 1
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)

variable [Facts₀]

def scatter_S16777216_S262144x1_S262144_n_0_0_1 : ScatterDims S16777216 S262144x1 S262144 where
  updateWindowDims := []
  insertedWindowDims := [0]
  scatterDimsToOperandDims := [0]
  indexVectorDim := 1
  wf := scatter_S16777216_S262144x1_S262144_n_0_0_1_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v13) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S262144 : Shape := ⟨1, ![262144]⟩
abbrev S4096 : Shape := ⟨1, ![4096]⟩
abbrev S4096x1024 : Shape := ⟨2, ![4096, 1024]⟩
abbrev S_ : Shape := ⟨0, ![]⟩
abbrev S262144x1 : Shape := ⟨2, ![262144, 1]⟩
abbrev S262144x1024 : Shape := ⟨2, ![262144, 1024]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S262144, .f32⟩
  | .hbm, ⟨2, _⟩ => ⟨S4096, .f32⟩
  | .hbm, ⟨3, _⟩ => ⟨S262144, .i32⟩
  | .hbm, ⟨4, _⟩ => ⟨S262144, .i32⟩
  | .hbm, ⟨5, _⟩ => ⟨S4096x1024, .f32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S262144x1024, .f32⟩
  | .hbm, ⟨15, _⟩ => ⟨S262144x1, .f32⟩
  | .hbm, ⟨16, _⟩ => ⟨S262144x1024, .f32⟩
  | .hbm, ⟨17, _⟩ => ⟨S262144x1024, .f32⟩
  | .hbm, ⟨18, _⟩ => ⟨S_, .f32⟩
  | .hbm, ⟨19, _⟩ => ⟨S4096x1024, .f32⟩
  | .hbm, ⟨20, _⟩ => ⟨S262144x1, .i32⟩
  | .hbm, ⟨21, _⟩ => ⟨S4096x1024, .f32⟩
  | .hbm, ⟨22, _⟩ => ⟨S1024x4096, .f32⟩
  | .hbm, ⟨23, _⟩ => ⟨S1x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  transposes_S1024x4096_S4096x1024_1_0 : S1024x4096.Transposes [1, 0] S4096x1024
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x1024_0_1 : S262144x1.BroadcastsInDim S262144x1024 (![0, 1] : Fin 2 → Fin S262144x1024.rank)
  bcast_S_S4096x1024 : S_.BroadcastsInDim S4096x1024 (![] : Fin 0 → Fin S4096x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  gather_S4096x1024_S262144x1_S262144x1024_1_0_n_n_0_1_11024_wf : GatherDims.WF S4096x1024 S262144x1 S262144x1024 [1] [0] [] [0] [] 1 ![1, 1024]
  scatter_S4096x1024_S262144x1_S262144x1024_1_0_0_1_wf : ScatterDims.WF S4096x1024 S262144x1 S262144x1024 [1] [0] [0] 1

variable [Facts₀]

def gather_S4096x1024_S262144x1_S262144x1024_1_0_n_n_0_1_11024 : GatherDims S4096x1024 S262144x1 S262144x1024 where
  offsetDims := [1]
  collapsedSliceDims := [0]
  operandBatchingDims := []
  startIndicesBatchingDims := []
  startIndexMap := [0]
  indexVectorDim := 1
  sliceSizes := ![1, 1024]
  wf := gather_S4096x1024_S262144x1_S262144x1024_1_0_n_n_0_1_11024_wf
def scatter_S4096x1024_S262144x1_S262144x1024_1_0_0_1 : ScatterDims S4096x1024 S262144x1 S262144x1024 where
  updateWindowDims := [1]
  insertedWindowDims := [0]
  scatterDimsToOperandDims := [0]
  indexVectorDim := 1
  wf := scatter_S4096x1024_S262144x1_S262144x1024_1_0_0_1_wf

class Facts : Prop extends Facts₀ where

variable [Facts]
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.IndexWords.lean ====
/-
  The index words of one sparse entry. Its row word a and column word b are 32-bit words which, read signed, lie in
  [0, 4096). One program addresses the dense 4096 x 4096 matrix by the single flattened word a * 4096 + b, wrapped by
  16777216 when negative; the other addresses a row by a, wrapped by 4096 when negative. In that range neither wrap
  fires, the flattened word reads signed as a * 4096 + b without overflow, and it names the flat position
  k * 4096 + c exactly when a is k and b is c.
-/
import Idealize.ShloMosaic.PureOps
import Idealize.ShloMosaic.Lib.StableHlo.Predicate

namespace Cert.SparseDense

open Idealize.ShloMosaic

/-- A word that reads signed in [0, 4096) reads unsigned as the same number. -/
theorem toNat_of_range {a : BitVec 32} (h0 : 0 ≤ a.toInt) (h1 : a.toInt < 4096) :
    a.toNat < 4096 ∧ a.toInt = (a.toNat : ℤ) := by
  have h := BitVec.toInt_eq_toNat_cond a
  have := a.isLt
  split_ifs at h <;> omega

/-- A signed compare against zero of a non-negative word is false. -/
theorem slt_zero_of_nonneg {a : BitVec 32} (h0 : 0 ≤ a.toInt) : ¬ (IntOp.cmpi .slt a 0#32 = 1) := by
  intro h
  have h' : (BitVec.ofBool (a.slt 0#32)) = 1#1 := h
  rw [StableHlo.Predicate.ofBool_eq_one_iff] at h'
  simp only [BitVec.slt, decide_eq_true_eq] at h'
  have : (0#32 : BitVec 32).toInt = 0 := by decide
  omega

/-- The wrap of a negative row by 4096 leaves a non-negative row word as it is. -/
theorem rowWrap_eq {a : BitVec 32} (h0 : 0 ≤ a.toInt) :
    Scalar.select (IntOp.cmpi .slt a 0#32) (IntOp.addi a 4096#32) a = a := by
  unfold Scalar.select
  rw [if_neg (slt_zero_of_nonneg h0)]

/-- The flattened word of an entry: row word times 4096 plus column word, in wrapping 32-bit arithmetic. -/
def flat (a b : BitVec 32) : BitVec 32 := IntOp.addi (IntOp.muli a 4096#32) b

/-- In range the flattened word does not overflow: read signed it is a * 4096 + b. -/
theorem flat_toInt {a b : BitVec 32} (ha0 : 0 ≤ a.toInt) (ha1 : a.toInt < 4096) (hb0 : 0 ≤ b.toInt)
    (hb1 : b.toInt < 4096) : (flat a b).toInt = a.toInt * 4096 + b.toInt := by
  obtain ⟨ha, ea⟩ := toNat_of_range ha0 ha1
  obtain ⟨hb, eb⟩ := toNat_of_range hb0 hb1
  have hn : (flat a b).toNat = a.toNat * 4096 + b.toNat := by
    unfold flat IntOp.addi IntOp.muli
    rw [BitVec.toNat_add, BitVec.toNat_mul]
    have : (4096#32 : BitVec 32).toNat = 4096 := by decide
    rw [this]
    omega
  rw [StableHlo.Predicate.toInt_eq_toNat_of_lt (by omega), hn, ea, eb]
  push_cast
  rfl

/-- So the wrap of a negative flattened word by 16777216 leaves it as it is. -/
theorem flatWrap_eq {a b : BitVec 32} (ha0 : 0 ≤ a.toInt) (ha1 : a.toInt < 4096) (hb0 : 0 ≤ b.toInt)
    (hb1 : b.toInt < 4096) :
    Scalar.select (IntOp.cmpi .slt (flat a b) 0#32) (IntOp.addi (flat a b) 16777216#32) (flat a b) = flat a b := by
  unfold Scalar.select
  rw [if_neg (slt_zero_of_nonneg (by rw [flat_toInt ha0 ha1 hb0 hb1]; omega))]

/-- The flattened word names flat position k * 4096 + c exactly when the row word is k and the column word is c. -/
theorem flat_lands_iff {a b : BitVec 32} (ha0 : 0 ≤ a.toInt) (ha1 : a.toInt < 4096) (hb0 : 0 ≤ b.toInt)
    (hb1 : b.toInt < 4096) (k c : Fin 4096) :
    (flat a b).toInt = ((k.val * 4096 + c.val : ℕ) : ℤ) ↔ a.toInt = (k.val : ℤ) ∧ b.toInt = (c.val : ℤ) := by
  rw [flat_toInt ha0 ha1 hb0 hb1]
  have := k.isLt
  have := c.isLt
  push_cast
  omega

end Cert.SparseDense
-- ==== Proof.SumSwap.lean ====
/-
  The exchange of sums behind a sparse matrix product. A sparse matrix is a list of entries, entry e holding the
  value v e at row ρ e, and it is in the column at hand when P e holds. Multiplying a row vector x into the dense
  column assembled from the entries, sum over rows k of x k times the sum of the v e with ρ e = k and P e, gives the
  sum over the entries in the column of x (ρ e) * v e. Over the reals this is distributivity and an exchange of two
  finite sums; the extended reals inherit it for real-valued x and v, which is where finiteness of the inputs is used:
  distributivity fails at the infinities.
-/
import Idealize.ShloMosaic.PureOps.Ideal

namespace Cert.SparseDense

open scoped BigOperators

/-- The coercion of the reals into the extended reals carries finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real summand guarded by a condition, coerced. -/
theorem coe_ite (c : Prop) [Decidable c] (a : ℝ) : (if c then (a : EReal) else 0) = ((if c then a else 0 : ℝ) : EReal) := by
  split <;> simp

/-- The exchange over the reals. -/
theorem dense_eq_sparse_real {R E : ℕ} (xr : Fin R → ℝ) (vr : Fin E → ℝ) (ρ : Fin E → Fin R) (P : Fin E → Prop)
    [DecidablePred P] :
    ∑ k : Fin R, xr k * ∑ e : Fin E, (if ρ e = k ∧ P e then vr e else 0)
      = ∑ e : Fin E, if P e then xr (ρ e) * vr e else 0 := by
  simp_rw [Finset.mul_sum]
  rw [Finset.sum_comm]
  refine Finset.sum_congr rfl fun e _ => ?_
  by_cases hP : P e
  · simp only [hP, and_true, if_true]
    rw [Finset.sum_eq_single (ρ e)]
    · simp
    · intro k _ hk
      rw [if_neg (Ne.symm hk), mul_zero]
    · intro h
      exact absurd (Finset.mem_univ _) h
  · simp [hP]

/-- The exchange over the extended reals, for real-valued x and v. -/
theorem dense_eq_sparse {R E : ℕ} (xr : Fin R → ℝ) (vr : Fin E → ℝ) (ρ : Fin E → Fin R) (P : Fin E → Prop)
    [DecidablePred P] :
    ∑ k : Fin R, (xr k : EReal) * ((0 : EReal) + ∑ e : Fin E, if ρ e = k ∧ P e then (vr e : EReal) else 0)
      = (0 : EReal) + ∑ e : Fin E, if P e then (xr (ρ e) : EReal) * (vr e : EReal) else 0 := by
  have hl : ∀ k : Fin R, (xr k : EReal) * ((0 : EReal) + ∑ e : Fin E, if ρ e = k ∧ P e then (vr e : EReal) else 0)
      = ((xr k * ∑ e : Fin E, (if ρ e = k ∧ P e then vr e else 0) : ℝ) : EReal) := by
    intro k
    rw [zero_add]
    simp_rw [coe_ite]
    rw [← coe_sum, ← EReal.coe_mul]
  have hr : ∀ e : Fin E, (if P e then (xr (ρ e) : EReal) * (vr e : EReal) else 0)
      = ((if P e then xr (ρ e) * vr e else 0 : ℝ) : EReal) := by
    intro e
    rw [← EReal.coe_mul, coe_ite]
  simp_rw [hl, hr]
  rw [zero_add, ← coe_sum, ← coe_sum, dense_eq_sparse_real]

end Cert.SparseDense
-- ==== Proof.Spec.lean ====
/-
  The two results as functions of the argument arrays, and their equality.

  Arguments: x, a 1024 x 4096 matrix; a sparse 4096 x 4096 matrix given by 262144 entries, entry e holding the value
  v e at the row named by the word rows e and the column named by the word cols e; a bias vector of 4096 entries.

  One program first assembles the dense matrix, W k c = the sum of the v e over the entries whose flattened word
  rows e * 4096 + cols e (wrapped by 16777216 when negative) names position k * 4096 + c, and returns
  max (sum over k of x b k * W k c + bias c, 0). The other sums, over the entries whose column word is c, the products
  x b (row of e) * v e, the row being rows e wrapped by 4096 when negative and clamped into [0, 4095], and returns the
  same max and bias of that sum. For real-valued x and v and index words in [0, 4096) the two agree: the wraps and
  the clamp do nothing there, the flattened word names k * 4096 + c exactly when the entry sits at (k, c), and the rest
  is the exchange of sums.
-/
import Idealize.ShloMosaic.Lib.ValueIdx
import Idealize.ShloMosaic.PureOps.Ideal.Laws
import proofs.«412038_j1245540516172_3_alg».proof.Proof.IndexWords
import proofs.«412038_j1245540516172_3_alg».proof.Proof.SumSwap

noncomputable section

namespace Cert.SparseDense

open Idealize.ShloMosaic Idealize.ShloMosaic.ValueIdx
open scoped BigOperators

/-- A row word, wrapped by 4096 when negative. -/
def wrapRow (a : BitVec 32) : BitVec 32 := Scalar.select (IntOp.cmpi .slt a 0#32) (IntOp.addi a 4096#32) a

/-- The flattened word of an entry, wrapped by 16777216 when negative. -/
def wrapFlat (a b : BitVec 32) : BitVec 32 :=
  Scalar.select (IntOp.cmpi .slt (flat a b) 0#32) (IntOp.addi (flat a b) 16777216#32) (flat a b)

/-- The row a word names once read signed and clamped into [0, 4095]. -/
def clampRow (w : BitVec 32) : Fin 4096 := ⟨min w.toInt.toNat (4096 - 1), by omega⟩

/-- The float literal zero of both programs. -/
abbrev zeroLit : EReal := Ideal.ofBits .f32 0x00000000#32

variable (x : (⟨2, ![1024, 4096]⟩ : Shape).Idx → EReal) (v : (⟨1, ![262144]⟩ : Shape).Idx → EReal)
  (bias : (⟨1, ![4096]⟩ : Shape).Idx → EReal) (rows cols : IVec ⟨1, ![262144]⟩ 32)

/-- Entry (k, c) of the dense matrix assembled from the sparse entries. -/
def denseW (k c : Fin 4096) : EReal :=
  zeroLit + ∑ e : Fin 262144,
    if (wrapFlat (rows (ix1 e)) (cols (ix1 e))).toInt = ((k.val * 4096 + c.val : ℕ) : ℤ) then v (ix1 e) else 0

theorem zeroLit_eq : zeroLit = 0 := Ideal.ofBits_zero_f32

/-- The result through the dense matrix, at batch position b and column c. -/
def denseAt (b : Fin 1024) (c : Fin 4096) : EReal :=
  max ((∑ k : Fin 4096, x (ix2 b k) * denseW v rows cols k c) + bias (ix1 c)) zeroLit

/-- The result entry by entry, at batch position b and column c. -/
def sparseAt (b : Fin 1024) (c : Fin 4096) : EReal :=
  max ((zeroLit + ∑ e : Fin 262144,
      if (cols (ix1 e)).toInt = (c.val : ℤ) then x (ix2 b (clampRow (wrapRow (rows (ix1 e))))) * v (ix1 e) else 0)
    + bias (ix1 c)) zeroLit

/-- The result through the dense matrix, as an array. -/
def denseOut : (⟨2, ![1024, 4096]⟩ : Shape).Idx → EReal := fun i => denseAt x v bias rows cols (i 0) (i 1)

/-- The result entry by entry, as an array. -/
def sparseOut : (⟨2, ![1024, 4096]⟩ : Shape).Idx → EReal := fun i => sparseAt x v bias rows cols (i 0) (i 1)

/-- The two results agree for real-valued x and v and index words in [0, 4096). -/
theorem denseAt_eq_sparseAt (hx : ∀ i, ∃ r : ℝ, x i = (r : EReal)) (hv : ∀ i, ∃ r : ℝ, v i = (r : EReal))
    (hrows : ∀ i, 0 ≤ (rows i).toInt ∧ (rows i).toInt < 4096) (hcols : ∀ i, 0 ≤ (cols i).toInt ∧ (cols i).toInt < 4096)
    (b : Fin 1024) (c : Fin 4096) :
    denseAt x v bias rows cols b c = sparseAt x v bias rows cols b c := by
  choose xr hxr using hx
  choose vr hvr using hv
  unfold denseAt sparseAt
  suffices key : (∑ k : Fin 4096, x (ix2 b k) * denseW v rows cols k c)
      = zeroLit + ∑ e : Fin 262144,
          if (cols (ix1 e)).toInt = (c.val : ℤ) then x (ix2 b (clampRow (wrapRow (rows (ix1 e))))) * v (ix1 e) else 0 by
    rw [key]
  -- the row of entry e, as a position
  let ρ : Fin 262144 → Fin 4096 := fun e => ⟨(rows (ix1 e)).toNat, (toNat_of_range (hrows (ix1 e)).1 (hrows (ix1 e)).2).1⟩
  have hρ : ∀ (e : Fin 262144) (k : Fin 4096), (rows (ix1 e)).toInt = (k.val : ℤ) ↔ ρ e = k := by
    intro e k
    have h := (toNat_of_range (hrows (ix1 e)).1 (hrows (ix1 e)).2).2
    constructor
    · intro hk
      apply Fin.ext
      show (rows (ix1 e)).toNat = k.val
      omega
    · intro hk
      have : (rows (ix1 e)).toNat = k.val := congrArg Fin.val hk
      omega
  have hclamp : ∀ e : Fin 262144, clampRow (wrapRow (rows (ix1 e))) = ρ e := by
    intro e
    have h := toNat_of_range (hrows (ix1 e)).1 (hrows (ix1 e)).2
    unfold wrapRow
    rw [rowWrap_eq (hrows (ix1 e)).1]
    apply Fin.ext
    show min (rows (ix1 e)).toInt.toNat (4096 - 1) = (rows (ix1 e)).toNat
    omega
  have hW : ∀ k : Fin 4096, denseW v rows cols k c
      = (0 : EReal) + ∑ e : Fin 262144,
          if ρ e = k ∧ (cols (ix1 e)).toInt = (c.val : ℤ) then ((vr (ix1 e) : ℝ) : EReal) else 0 := by
    intro k
    unfold denseW
    rw [zeroLit_eq]
    refine congrArg (fun s : EReal => (0 : EReal) + s) (Finset.sum_congr rfl fun e _ => ?_)
    unfold wrapFlat
    rw [flatWrap_eq (hrows (ix1 e)).1 (hrows (ix1 e)).2 (hcols (ix1 e)).1 (hcols (ix1 e)).2, hvr]
    refine if_congr ?_ rfl rfl
    rw [flat_lands_iff (hrows (ix1 e)).1 (hrows (ix1 e)).2 (hcols (ix1 e)).1 (hcols (ix1 e)).2, hρ]
  have hL : ∀ k : Fin 4096, x (ix2 b k) * denseW v rows cols k c
      = ((xr (ix2 b k) : ℝ) : EReal) * ((0 : EReal) + ∑ e : Fin 262144,
          if ρ e = k ∧ (cols (ix1 e)).toInt = (c.val : ℤ) then ((vr (ix1 e) : ℝ) : EReal) else 0) := by
    intro k
    rw [hW, hxr]
  have hR : ∀ e : Fin 262144,
      (if (cols (ix1 e)).toInt = (c.val : ℤ) then x (ix2 b (clampRow (wrapRow (rows (ix1 e))))) * v (ix1 e) else 0)
      = if (cols (ix1 e)).toInt = (c.val : ℤ) then ((xr (ix2 b (ρ e)) : ℝ) : EReal) * ((vr (ix1 e) : ℝ) : EReal) else 0 := by
    intro e
    rw [hclamp, hxr, hvr]
  simp_rw [hL, hR]
  rw [zeroLit_eq]
  exact dense_eq_sparse (fun k => xr (ix2 b k)) (fun e => vr (ix1 e)) ρ (fun e => (cols (ix1 e)).toInt = (c.val : ℤ))

/-- The same, array by array. -/
theorem denseOut_eq_sparseOut (hx : ∀ i, ∃ r : ℝ, x i = (r : EReal)) (hv : ∀ i, ∃ r : ℝ, v i = (r : EReal))
    (hrows : ∀ i, 0 ≤ (rows i).toInt ∧ (rows i).toInt < 4096) (hcols : ∀ i, 0 ≤ (cols i).toInt ∧ (cols i).toInt < 4096) :
    denseOut x v bias rows cols = sparseOut x v bias rows cols :=
  funext fun i => denseAt_eq_sparseAt x v bias rows cols hx hv hrows hcols (i 0) (i 1)

end Cert.SparseDense

end
-- ==== Proof.KernelArrays.lean ====
/-
  What the region finds in its three input arrays, read at an index, and what its body computes, read at an index.

  Before the region the host assembles the dense matrix: a vector of 16777216 zeros receives the value of every sparse
  entry at the position its flattened word names, the vector is cut into 4096 rows of 4096, and entry (k, c) is the
  vector's entry k * 4096 + c, which is `denseW`. The matrix x and the bias reach the region unchanged but for a change
  of float format and a reshape to one row. The body multiplies its x block by its block of the dense matrix into a zero
  accumulator, adds its block of the bias row to every row, and takes the maximum with zero.
-/
import proofs.«412038_j1245540516172_3_alg».proof.Proof.Gen.KernelIdeal.Frame
import proofs.«412038_j1245540516172_3_alg».proof.Proof.LibScatterRows
import proofs.«412038_j1245540516172_3_alg».proof.Proof.LibContract
import proofs.«412038_j1245540516172_3_alg».proof.Proof.Spec
import Idealize.ShloMosaic.Lib.StableHlo.Run
import Idealize.ShloMosaic.Lib.Pipeline.Value

noncomputable section

namespace Cert.KernelIdeal.KValue

open Cert.KernelIdeal Idealize.ShloMosaic Idealize.ShloMosaic.TcCoe Idealize.SL.Sem Idealize.ShloMosaic.StableHlo
open Idealize.ShloMosaic.ValueIdx Cert.SparseDense
open Cert.KernelIdeal.Gen (V hostOps0 k0_pay1)
open scoped BigOperators

/-! ## The host's index column and flat vector -/

/-- The column of flattened words, one per sparse entry: row word times 4096 plus column word, plus 16777216 when that
    is negative. -/
def flatCol (rows cols : IVec S262144 32) : IVec S262144x1 32 :=
  broadcastInDim S262144x1 ![0] Facts₀.bcast_S262144_S262144x1_0
    (select (cmpi .slt (addi (muli rows (broadcastInDim S262144 ![] Facts₀.bcast_S_S262144 (constantI S_ 32 4096#32))) cols)
        (broadcastInDim S262144 ![] Facts₀.bcast_S_S262144 (constantI S_ 32 0#32)))
      (addi (addi (muli rows (broadcastInDim S262144 ![] Facts₀.bcast_S_S262144 (constantI S_ 32 4096#32))) cols)
        (broadcastInDim S262144 ![] Facts₀.bcast_S_S262144 (constantI S_ 32 16777216#32)))
      (addi (muli rows (broadcastInDim S262144 ![] Facts₀.bcast_S_S262144 (constantI S_ 32 4096#32))) cols))

/-- The flat vector of 16777216 sums. -/
def wFlat (v : FVec Ideal S262144 .f32) (rows cols : IVec S262144 32) : FVec Ideal S16777216 .f32 :=
  Host.scatterAdd scatter_S16777216_S262144x1_S262144_n_0_0_1
    (broadcastInDim S16777216 ![] Facts₀.bcast_S_S16777216 (constant S_ .f32 0x00000000#32)) (flatCol rows cols) v

/-- A scalar word broadcast to one word per entry, read at an entry. -/
theorem bcast_word (w : BitVec 32) (i : S262144.Idx) :
    broadcastInDim S262144 ![] Facts₀.bcast_S_S262144 (constantI S_ 32 w) i = w :=
  broadcastInDim_apply _ Facts₀.bcast_S_S262144 (constantI S_ 32 w) i ix0 (fun a => a.elim0)

/-- The flattened word of entry e. -/
theorem flatCol_at (rows cols : IVec S262144 32) (e : Fin 262144) :
    flatCol rows cols (ix2 e (0 : Fin 1)) = wrapFlat (rows (ix1 e)) (cols (ix1 e)) := by
  unfold flatCol
  rw [broadcastInDim_apply _ Facts₀.bcast_S262144_S262144x1_0 _ (ix2 e (0 : Fin 1)) (ix1 e) (fun a => match a with
    | ⟨0, _⟩ => by show e.val = if (262144 : Nat) = 1 then 0 else e.val; rw [if_neg (by decide)])]
  show Scalar.select (IntOp.cmpi .slt (IntOp.addi (IntOp.muli (rows (ix1 e)) (broadcastInDim S262144 ![] Facts₀.bcast_S_S262144 (constantI S_ 32 4096#32) (ix1 e))) (cols (ix1 e)))
        (broadcastInDim S262144 ![] Facts₀.bcast_S_S262144 (constantI S_ 32 0#32) (ix1 e)))
      (IntOp.addi (IntOp.addi (IntOp.muli (rows (ix1 e)) (broadcastInDim S262144 ![] Facts₀.bcast_S_S262144 (constantI S_ 32 4096#32) (ix1 e))) (cols (ix1 e)))
        (broadcastInDim S262144 ![] Facts₀.bcast_S_S262144 (constantI S_ 32 16777216#32) (ix1 e)))
      (IntOp.addi (IntOp.muli (rows (ix1 e)) (broadcastInDim S262144 ![] Facts₀.bcast_S_S262144 (constantI S_ 32 4096#32) (ix1 e))) (cols (ix1 e))) = _
  simp only [bcast_word]
  rfl

/-- Entry r of the flat vector: zero plus the values of the entries whose flattened word names r. -/
theorem wFlat_at (v : FVec Ideal S262144 .f32) (rows cols : IVec S262144 32) (r : Fin 16777216) :
    wFlat v rows cols (ix1 r)
      = zeroLit + ∑ e : Fin 262144, if (wrapFlat (rows (ix1 e)) (cols (ix1 e))).toInt = (r.val : ℤ) then v (ix1 e) else 0 := by
  unfold wFlat
  rw [Cert.LibScatterRows.scatterAdd_vec_apply _ rfl rfl rfl rfl]
  have hz : broadcastInDim S16777216 ![] Facts₀.bcast_S_S16777216 (constant (F := Ideal) S_ .f32 0x00000000#32) (ix1 r) = zeroLit :=
    broadcastInDim_apply _ Facts₀.bcast_S_S16777216 (constant (F := Ideal) S_ .f32 0x00000000#32) (ix1 r) ix0 (fun a => a.elim0)
  rw [hz]
  simp only [flatCol_at]

/-! ## The arrays as the region finds them -/

variable (m : (ℓ : Loc nD τ sig) → Buf (Elt Ideal) ℓ)

set_option maxHeartbeats 1000000 in
/-- The dense matrix the region finds: the flat vector of sums cut into rows. -/
theorem V_w (c : Dev nD) : (V m c main_v12 : S4096x4096.Idx → EReal)
    = truncf .bf16 (shapeCast S4096x4096 (wFlat (m ((c : Thread nD τ).loc main_arg1)) (m ((c : Thread nD τ).loc main_arg3)) (m ((c : Thread nD τ).loc main_arg4))) Facts₀.shapeCasts_S16777216_S4096x4096) Facts₀.bitsLt_bf16_f32 := by
  dsimp only [V, hostOps0]
  after_results
  rfl

/-- The matrix x the region finds is the argument's. -/
theorem V_x (c : Dev nD) : (V m c main_v13 : S1024x4096.Idx → EReal)
    = (truncf .bf16 (m ((c : Thread nD τ).loc main_arg0) : FVec Ideal S1024x4096 .f32) Facts₀.bitsLt_bf16_f32 : FVec Ideal S1024x4096 .bf16) := by
  dsimp only [V, hostOps0]
  after_results

/-- The bias the region finds is the argument's, as one row. -/
theorem V_b (c : Dev nD) : (V m c main_v14 : S1x4096.Idx → EReal)
    = shapeCast S1x4096 (m ((c : Thread nD τ).loc main_arg2)) Facts₀.shapeCasts_S4096_S1x4096 := by
  dsimp only [V, hostOps0]
  after_results
  rfl

/-- Entry (k, cc) of the dense matrix the region finds. -/
theorem W_at (c : Dev nD) (k cc : Fin 4096) :
    (V m c main_v12 : S4096x4096.Idx → EReal) (ix2 k cc)
      = denseW (m ((c : Thread nD τ).loc main_arg1)) (m ((c : Thread nD τ).loc main_arg3)) (m ((c : Thread nD τ).loc main_arg4)) k cc := by
  rw [V_w, truncf_apply]
  have hlt : k.val * 4096 + cc.val < 16777216 := by have := k.isLt; have := cc.isLt; omega
  rw [shapeCast_apply _ Facts₀.shapeCasts_S16777216_S4096x4096 (ix2 k cc) (ix1 (⟨k.val * 4096 + cc.val, hlt⟩ : Fin 16777216)) (by
    rw [Shape.rowMajor_val_one, Shape.rowMajor_val_two]; rfl)]
  rw [wFlat_at]
  rfl

/-- Entry (b, k) of the matrix x the region finds. -/
theorem X_at (c : Dev nD) (i : S1024x4096.Idx) :
    (V m c main_v13 : S1024x4096.Idx → EReal) i = m ((c : Thread nD τ).loc main_arg0) i := by
  rw [V_x, truncf_apply]

/-- Entry (0, cc) of the bias row the region finds. -/
theorem B_at (c : Dev nD) (cc : Fin 4096) :
    (V m c main_v14 : S1x4096.Idx → EReal) (ix2 (0 : Fin 1) cc) = m ((c : Thread nD τ).loc main_arg2) (ix1 cc) := by
  rw [V_b]
  exact shapeCast_apply _ Facts₀.shapeCasts_S4096_S1x4096 (ix2 (0 : Fin 1) cc) (ix1 cc) (by
    rw [Shape.rowMajor_val_one, Shape.rowMajor_val_two]; show cc.val = 0 * 4096 + cc.val; omega)

/-! ## The body's result at an index -/

/-- Entry (p, q) of what the body stores: the row p of its x block against column q of its block of the dense matrix,
    plus entry q of its bias block, or zero if that is negative. -/
theorem pay_at (x0 : Vec Ideal S1024x4096 .bf16) (x1 : Vec Ideal S4096x512 .bf16) (x2 : Vec Ideal S1x512 .f32)
    (p : Fin 1024) (q : Fin 512) :
    k0_pay1 (F := Ideal) x0 x1 x2 (ix2 p q)
      = max ((∑ k : Fin 4096, x0 (ix2 p k) * x1 (ix2 k q)) + x2 (ix2 (0 : Fin 1) q)) zeroLit := by
  unfold k0_pay1
  rw [maximumf_apply, addf_apply, broadcast_apply, shapeCast_self, shapeCast_self, shapeCast_self,
    Cert.LibContract.matmul_plain _ rfl rfl rfl rfl rfl rfl none x0 x1 p q,
    broadcastTo_apply x2 Facts₀.broadcasts_S1x512_S1024x512 (ix2 p q) (ix2 (0 : Fin 1) q) (fun a => match a with
      | ⟨0, _⟩ => by show 0 = if (1 : Nat) = 1 then 0 else _; rw [if_pos rfl]
      | ⟨1, _⟩ => by show q.val = if (512 : Nat) = 1 then 0 else q.val; rw [if_neg (by decide)])]
  rfl

end Cert.KernelIdeal.KValue

end
-- ==== Proof.KernelValue.lean ====
/-
  The output array after the run. The region's grid has 8 points; point t holds all of x, columns 512 t .. 512 t + 511
  of the dense matrix and of the bias row, and writes back columns 512 t .. 512 t + 511 of the result. So what point t
  writes back is block t of the result through the dense matrix (`denseOut`), the 8 blocks tile the array, and the array
  ends holding `denseOut` of the arguments.
-/
import proofs.«412038_j1245540516172_3_alg».proof.Proof.Gen.KernelIdeal.Value
import proofs.«412038_j1245540516172_3_alg».proof.Proof.KernelArrays

set_option maxRecDepth 16384

noncomputable section

namespace Cert.KernelIdeal.KValue

open Cert.KernelIdeal Idealize.ShloMosaic Idealize.ShloMosaic.TcCoe Idealize.SL.Sem
open Idealize.ShloMosaic.ValueIdx Cert.SparseDense
open Cert.KernelIdeal.Gen (V k0_pay1 iblk dats out0_3)
open Idealize.ShloMosaic.Pipeline (Dat)
open scoped BigOperators

variable (m : (ℓ : Loc nD τ sig) → Buf (Elt Ideal) ℓ) (ρ : Dev nD → PrngReg)

/-- The result through the dense matrix, of the argument arrays of core c. -/
def result (c : Dev nD) : S1024x4096.Idx → EReal :=
  denseOut (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-- The block indices, decided over the 8 points: the x window stays at block (0, 0); the windows of the dense matrix,
    the bias row and the result are at block (0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Column q of point t's blocks is column 512 t + q of the arrays. -/
def colOf (t : Fin cfg0.N) (q : Fin 512) : Fin 4096 :=
  ⟨t.val * 512 + q.val, by have h : t.val < 8 := t.isLt; have := q.isLt; omega⟩

/-- The input blocks at point t, by their literal types. -/
abbrev xblk (c : Dev nD) (t : Fin cfg0.N) : Vec Ideal S1024x4096 .bf16 := iblk m c 0 t
abbrev wblk (c : Dev nD) (t : Fin cfg0.N) : Vec Ideal S4096x512 .bf16 := iblk m c 1 t
abbrev bblk (c : Dev nD) (t : Fin cfg0.N) : Vec Ideal S1x512 .f32 := iblk m c 2 t

/-- The x block is all of x. -/
theorem xblk_at (c : Dev nD) (t : Fin cfg0.N) (p : Fin 1024) (k : Fin 4096) :
    xblk m c t (ix2 p k) = m ((c : Thread nD τ).loc main_arg0) (ix2 p k) := by
  obtain ⟨e0, e1, -⟩ := idx_facts t
  show V m c main_v13 (((cfg0.win 0).blk t).view.emb (ix2 p k)) = _
  have h : ((cfg0.win 0).blk t).view.emb (ix2 p k) = ix2 p k := by
    funext a; apply Fin.ext
    match a with
    | ⟨0, _⟩ => show win0_0.index t (0 : Fin 2) * 1024 + 1 * p.val = p.val; omega
    | ⟨1, _⟩ => show win0_0.index t (1 : Fin 2) * 4096 + 1 * k.val = k.val; omega
  rw [h, X_at]

/-- The block of the dense matrix at point t is its columns 512 t .. 512 t + 511. -/
theorem wblk_at (c : Dev nD) (t : Fin cfg0.N) (k : Fin 4096) (q : Fin 512) :
    wblk m c t (ix2 k q)
      = denseW (m ((c : Thread nD τ).loc main_arg1)) (m ((c : Thread nD τ).loc main_arg3)) (m ((c : Thread nD τ).loc main_arg4)) k (colOf t q) := by
  obtain ⟨-, -, e2, e3, -⟩ := idx_facts t
  show V m c main_v12 (((cfg0.win 1).blk t).view.emb (ix2 k q)) = _
  have h : ((cfg0.win 1).blk t).view.emb (ix2 k q) = ix2 k (colOf t q) := by
    funext a; apply Fin.ext
    match a with
    | ⟨0, _⟩ => show win0_1.index t (0 : Fin 2) * 4096 + 1 * k.val = k.val; omega
    | ⟨1, _⟩ => show win0_1.index t (1 : Fin 2) * 512 + 1 * q.val = t.val * 512 + q.val; omega
  rw [h, W_at]

/-- The block of the bias row at point t is its columns 512 t .. 512 t + 511. -/
theorem bblk_at (c : Dev nD) (t : Fin cfg0.N) (q : Fin 512) :
    bblk m c t (ix2 (0 : Fin 1) q) = m ((c : Thread nD τ).loc main_arg2) (ix1 (colOf t q)) := by
  obtain ⟨-, -, -, -, e4, e5, -⟩ := idx_facts t
  show V m c main_v14 (((cfg0.win 2).blk t).view.emb (ix2 (0 : Fin 1) q)) = _
  have h : ((cfg0.win 2).blk t).view.emb (ix2 (0 : Fin 1) q) = ix2 (0 : Fin 1) (colOf t q) := by
    funext a; apply Fin.ext
    match a with
    | ⟨0, _⟩ => show win0_2.index t (0 : Fin 2) * 1 + 1 * 0 = 0; omega
    | ⟨1, _⟩ => show win0_2.index t (1 : Fin 2) * 512 + 1 * q.val = t.val * 512 + q.val; omega
  rw [h, B_at]

/-- Entry (p, q) of what the body stores at point t is entry (p, 512 t + q) of the result through the dense matrix. -/
theorem stored_at (c : Dev nD) (t : Fin cfg0.N) (p : Fin 1024) (q : Fin 512) :
    k0_pay1 (F := Ideal) (xblk m c t) (wblk m c t) (bblk m c t) (ix2 p q) = result m c (ix2 p (colOf t q)) := by
  rw [pay_at (xblk m c t) (wblk m c t) (bblk m c t) p q]
  simp only [xblk_at, wblk_at, bblk_at]
  rfl

/-- WHAT POINT t WRITES BACK is block t of the result. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S1024x4096) hz, View.ld_unit_zero (S := S4096x512) hz, View.ld_unit_zero (S := S1x512) hz]
  obtain ⟨-, -, -, -, -, -, e6, e7⟩ := idx_facts t
  funext j
  show k0_pay1 (F := Ideal) (xblk m c t) (wblk m c t) (bblk m c t) j = result m c (((cfg0.win 3).blk t).view.emb j)
  have hj : j = ix2 (⟨(j 0).val, (j 0).isLt⟩ : Fin 1024) (⟨(j 1).val, (j 1).isLt⟩ : Fin 512) :=
    funext fun a => Fin.ext (by match a with | ⟨0, _⟩ => rfl | ⟨1, _⟩ => rfl)
  have he : ((cfg0.win 3).blk t).view.emb j
      = ix2 (⟨(j 0).val, (j 0).isLt⟩ : Fin 1024) (colOf t (⟨(j 1).val, (j 1).isLt⟩ : Fin 512)) := by
    funext a; apply Fin.ext
    match a with
    | ⟨0, _⟩ => show win0_3.index t (0 : Fin 2) * 1024 + 1 * (j 0).val = (j 0).val; omega
    | ⟨1, _⟩ => show win0_3.index t (1 : Fin 2) * 512 + 1 * (j 1).val = t.val * 512 + (j 1).val; omega
  rw [he]
  exact (congrArg (k0_pay1 (F := Ideal) (xblk m c t) (wblk m c t) (bblk m c t)) hj).trans (stored_at m c t _ _)

/-- An index of the array is in point t's block iff each coordinate is in the block's range on its axis. -/
theorem mem_blk (t : Fin cfg0.N) (i : S1024x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v15).slice (win0_3.rect t)).set ↔ _
  rw [View.set_slice_whole, Rect.mem_set_unit]
  exact Iff.rfl

/-- The 8 blocks tile the array: column i₁ is in the block of point i₁ / 512. -/
theorem cover (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  have ht : (i 1).val / 512 < 8 := by omega
  obtain ⟨-, -, -, -, -, -, e6, e7⟩ := idx_facts (⟨(i 1).val / 512, ht⟩ : Fin cfg0.N)
  have e7' : win0_3.index (⟨(i 1).val / 512, ht⟩ : Fin cfg0.N) (1 : Fin 2) = (i 1).val / 512 := e7
  refine ⟨⟨(i 1).val / 512, ht⟩, Cert.KernelIdeal.Gen.flush0_3 _, ?_⟩
  rw [mem_blk]
  intro a
  match a with
  | ⟨0, _⟩ =>
    show win0_3.index (⟨(i 1).val / 512, ht⟩ : Fin cfg0.N) (0 : Fin 2) * 1024 ≤ (i 0).val ∧ (i 0).val < win0_3.index (⟨(i 1).val / 512, ht⟩ : Fin cfg0.N) (0 : Fin 2) * 1024 + 1024
    omega
  | ⟨1, _⟩ =>
    show win0_3.index (⟨(i 1).val / 512, ht⟩ : Fin cfg0.N) (1 : Fin 2) * 512 ≤ (i 1).val ∧ (i 1).val < win0_3.index (⟨(i 1).val / 512, ht⟩ : Fin cfg0.N) (1 : Fin 2) * 512 + 512
    omega

/-- THE ARRAY after the run is the result through the dense matrix. -/
theorem final (c : Dev nD) : (dats m 0 c).arrAt 3 cfg0.N = result m c :=
  (dats m 0 c).arrAt_eq_of_cover 3 (result m c) (fun t _ => flushed_eq m c t) cover

/-- The run, read: the output array at the result through the dense matrix, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.KValue

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.RefValue.lean ====
/-
  What the reference computes, index by index. Entry (b, c) of its result is max (S c b + bias c, 0), where the table S,
  4096 rows of 1024, starts at zero and receives, for every sparse entry e whose column word is c, the row e of the
  products: x (transposed) at the row that e's row word names, wrapped by 4096 when negative and clamped by the
  gather into [0, 4095], times the value v e. This is the entry-by-entry result `sparseOut`.
-/
import proofs.«412038_j1245540516172_3_alg».proof.Proof.Gen.ReferenceIdeal.Read
import proofs.«412038_j1245540516172_3_alg».proof.Proof.LibGatherRows
import proofs.«412038_j1245540516172_3_alg».proof.Proof.LibScatterRows
import proofs.«412038_j1245540516172_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.SparseDense
open scoped BigOperators

variable (x0 : (⟨S1024x4096, .f32⟩ : BufTy).Contents (Elt Ideal)) (x1 : (⟨S262144, .f32⟩ : BufTy).Contents (Elt Ideal))
  (x2 : (⟨S4096, .f32⟩ : BufTy).Contents (Elt Ideal)) (x3 x4 : (⟨S262144, .i32⟩ : BufTy).Contents (Elt Ideal))

/-- The row word the gather reads for entry e: the row word of e, wrapped by 4096 when negative. -/
theorem rowWord_eq (e : Fin 262144) : val_main_v6 (F := Ideal) x3 (ix2 e (0 : Fin 1)) = wrapRow (x3 (ix1 e)) := by
  rw [val_main_v6_apply]
  have e6 : idx_main_v6 (ix2 e (0 : Fin 1)) = ix1 e := funext fun a => Fin.ext (by match a with | ⟨0, _⟩ => rfl)
  rw [e6, val_main_v5_apply, val_main_v2_apply, val_main_v4_apply, val_main_v1_apply, val_main_v3_apply,
    val_main_c_apply, val_main_c_0_apply]
  rfl

/-- The column word the scatter reads for entry e is the column word of e. -/
theorem colWord_eq (e : Fin 262144) : val_main_v12 (F := Ideal) x4 (ix2 e (0 : Fin 1)) = x4 (ix1 e) := by
  rw [val_main_v12_apply]
  have e12 : idx_main_v12 (ix2 e (0 : Fin 1)) = ix1 e := funext fun a => Fin.ext (by match a with | ⟨0, _⟩ => rfl)
  rw [e12]

/-- Row e of the products, at batch position b: x at (b, the row e names) times the value of e. -/
theorem product_eq (e : Fin 262144) (b : Fin 1024) :
    val_main_v10 (F := Ideal) x0 x1 x3 (ix2 e b) = x0 (ix2 b (clampRow (wrapRow (x3 (ix1 e))))) * x1 (ix1 e) := by
  rw [val_main_v10_apply, val_main_v9_apply, val_main_v8_apply]
  have e8 : idx_main_v8 (idx_main_v9 (ix2 e b)) = ix1 e := funext fun a => Fin.ext (by match a with | ⟨0, _⟩ => rfl)
  rw [e8]
  unfold val_main_v7
  rw [Cert.LibGatherRows.gather_rows _ rfl rfl rfl rfl rfl rfl _ _ e b (by norm_num), val_main_v0_apply]
  have e0 : idx_main_v0 (ix2 (⟨min (val_main_v6 (F := Ideal) x3 (ix2 e (0 : Fin 1))).toInt.toNat (4096 - 1), by omega⟩ : Fin 4096) b)
      = ix2 b (clampRow (val_main_v6 (F := Ideal) x3 (ix2 e (0 : Fin 1)))) :=
    funext fun a => Fin.ext (by match a with | ⟨0, _⟩ => rfl | ⟨1, _⟩ => rfl)
  rw [e0, rowWord_eq]
  rfl

/-- The reference's result is the entry-by-entry result. -/
theorem ref_eq_sparseOut : val_main_v18 (F := Ideal) x0 x1 x2 x3 x4 = sparseOut x0 x1 x2 x3 x4 := by
  funext i
  obtain ⟨b, c, rfl⟩ : ∃ (b : Fin 1024) (c : Fin 4096), i = ix2 b c := ⟨i 0, i 1, eq_ix2 i⟩
  rw [val_main_v18_apply, val_main_v17_apply, val_main_v14_apply, val_main_call0_v0_apply, val_main_call0_cst_apply,
    val_main_v16_apply, val_main_v15_apply]
  have e14 : idx_main_v14 (ix2 b c) = ix2 c b := funext fun a => Fin.ext (by match a with | ⟨0, _⟩ => rfl | ⟨1, _⟩ => rfl)
  have e15 : idx_main_v15 (idx_main_v16 (ix2 b c)) = ix1 c := funext fun a => Fin.ext (by match a with | ⟨0, _⟩ => rfl)
  rw [e14, e15]
  unfold val_main_v13
  rw [Cert.LibScatterRows.scatterAdd_rows_apply _ rfl rfl rfl rfl, val_main_v11_apply, val_main_cst_apply]
  simp only [Ideal.maximumf_def, Ideal.addf_def, Ideal.ofBits_def]
  show _ = sparseAt x0 x1 x2 x3 x4 b c
  unfold sparseAt
  have key : ∀ e : Fin 262144,
      (if (val_main_v12 (F := Ideal) x4 (ix2 e (0 : Fin 1))).toInt = (c.val : ℤ) then val_main_v10 (F := Ideal) x0 x1 x3 (ix2 e b) else 0)
      = if (x4 (ix1 e)).toInt = (c.val : ℤ) then x0 (ix2 b (clampRow (wrapRow (x3 (ix1 e))))) * x1 (ix1 e) else 0 := by
    intro e
    rw [colWord_eq, product_eq]
  simp_rw [key]

end Cert.ReferenceIdeal.RefValue

end
-- ==== Proof.PreFacts.lean ====
/-
  The precondition, read back. It says: every entry of x, of the sparse values and of the bias is finite, and every row
  word and every column word of the sparse entries, read signed, lies in [0, 4096). Each clause is an all-reduction by
  `and` of a pointwise test, so the precondition being 1 makes every pointwise test 1: an extended real whose absolute
  value is below +infinity is a real number, and the two signed comparisons bound a word.
-/
import proofs.«412038_j1245540516172_3_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Decode

open Cert.Pre_finite_inputs Cert.Pre_finite_inputs.Facts Idealize.ShloMosaic Idealize.ShloMosaic.ValueIdx

instance : Subsingleton S_.Idx := ⟨fun a b => funext fun d => d.elim0⟩

/-- An extended real whose absolute value max (y, -y) is below +infinity is a real number. -/
theorem real_of_abs_lt (y : EReal) (h : Ideal.cmp .olt (max y (-y)) (Ideal.ofBits .f32 0x7F800000#32) = 1#1) :
    ∃ r : ℝ, y = (r : EReal) := by
  have hinf : Ideal.ofBits .f32 0x7F800000#32 = (⊤ : EReal) := by simp [Ideal.ofBits, Ideal.ieee]
  rw [hinf] at h
  have h' : max y (-y) < ⊤ := by
    by_contra hn
    simp [Ideal.cmp, hn] at h
  induction y using EReal.rec with
  | bot => simp at h'
  | coe r => exact ⟨r, rfl⟩
  | top => simp at h'

/-- A float array that passes the finiteness test at index i holds a real number there. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have hB : broadcastInDim s ![] hb (constant (F := Ideal) S_ .f32 0x7F800000#32) i = Ideal.ofBits .f32 0x7F800000#32 :=
    broadcastInDim_apply _ hb (constant (F := Ideal) S_ .f32 0x7F800000#32) i ix0 (fun a => a.elim0)
  have h' : Ideal.cmp .olt (max (x i) (-(x i))) (Ideal.ofBits .f32 0x7F800000#32) = 1#1 := by
    rw [← hB]
    exact h
  exact real_of_abs_lt _ h'

/-- An index word that passes the range test lies in [0, 4096) read signed. -/
theorem range_of_test (w : IVec S262144 32) (i : S262144.Idx)
    (h : andi (cmpi .sge w (broadcastInDim S262144 ![] bcast_S_S262144 (constantI S_ 32 0#32)))
      (cmpi .slt w (broadcastInDim S262144 ![] bcast_S_S262144 (constantI S_ 32 4096#32))) i = 1#1) :
    0 ≤ (w i).toInt ∧ (w i).toInt < 4096 := by
  obtain ⟨h1, h2⟩ := IntOp.andi_eq_one.1 h
  have b0 : broadcastInDim S262144 ![] bcast_S_S262144 (constantI S_ 32 0#32) i = 0#32 :=
    broadcastInDim_apply _ bcast_S_S262144 (constantI S_ 32 0#32) i ix0 (fun a => a.elim0)
  have b1 : broadcastInDim S262144 ![] bcast_S_S262144 (constantI S_ 32 4096#32) i = 4096#32 :=
    broadcastInDim_apply _ bcast_S_S262144 (constantI S_ 32 4096#32) i ix0 (fun a => a.elim0)
  have h1' : IntOp.cmpi .sge (w i) 0#32 = 1#1 := by rw [← b0]; exact h1
  have h2' : IntOp.cmpi .slt (w i) 4096#32 = 1#1 := by rw [← b1]; exact h2
  rw [IntOp.cmpi_sge] at h1'
  rw [IntOp.cmpi_slt] at h2'
  have z : (0#32 : BitVec 32).toInt = 0 := by decide
  have z' : (4096#32 : BitVec 32).toInt = 4096 := by decide
  omega

/-- The precondition read back: x and the sparse values are real-valued, the row and column words are in [0, 4096). -/
theorem decode (x : FVec Ideal S1024x4096 .f32) (v : FVec Ideal S262144 .f32) (bias : FVec Ideal S4096 .f32)
    (rows cols : IVec S262144 32) (h : fn (F := Ideal) x v bias rows cols = fun _ => 1#1) :
    (∀ i, ∃ r : ℝ, x i = (r : EReal)) ∧ (∀ i, ∃ r : ℝ, v i = (r : EReal))
      ∧ (∀ i, 0 ≤ (rows i).toInt ∧ (rows i).toInt < 4096) ∧ (∀ i, 0 ≤ (cols i).toInt ∧ (cols i).toInt < 4096) := by
  have h0 := congrFun h ix0
  dsimp only [fn, fn_part1] at h0
  obtain ⟨h1, hcols⟩ := IntOp.andi_eq_one.1 h0
  obtain ⟨h2, hrows⟩ := IntOp.andi_eq_one.1 h1
  obtain ⟨h3, -⟩ := IntOp.andi_eq_one.1 h2
  obtain ⟨hx, hv⟩ := IntOp.andi_eq_one.1 h3
  refine ⟨fun i => ?_, fun i => ?_, fun i => ?_, fun i => ?_⟩
  · exact real_of_test x bcast_S_S1024x4096 i (Host.reduce_andi_all _ _ _ _ ix0 hx i)
  · exact real_of_test v bcast_S_S262144 i (Host.reduce_andi_all _ _ _ _ ix0 hv i)
  · exact range_of_test rows i (Host.reduce_andi_all _ _ _ _ ix0 hrows i)
  · exact range_of_test cols i (Host.reduce_andi_all _ _ _ _ ix0 hcols i)

end Cert.Pre_finite_inputs.Decode

end
-- ==== Proof.lean ====
/-
  A sparse matrix product with bias and rectification, computed two ways.

  Arguments: x, 1024 x 4096; 262144 sparse entries, entry e holding the value v e at row word rows e and column word
  cols e of a 4096 x 4096 matrix; a bias of 4096 entries. The precondition: x, v and the bias are finite, and every row
  and column word, read signed, lies in [0, 4096).

  The kernel program assembles the dense matrix on the host (a scatter of the values into 16777216 zeros at the
  flattened positions row * 4096 + column, cut into rows) and multiplies x by it block of 512 columns by block, adding the
  bias and taking the maximum with zero: entry (b, c) of its result is
  max (sum over k of x b k * W k c + bias c, 0), W k c the sum of the values at (k, c).
  The reference gathers, per sparse entry, the row of x transposed that the entry's row word names, scales it by the
  value, and sums the scaled rows into the row of a table that the entry's column word names: entry (b, c) of its result
  is max (sum over the entries e in column c of x b (row e) * v e + bias c, 0).
  Over the extended reals the two agree under the precondition: in range no index wraps, clamps or is dropped, the
  flattened position determines row and column, and for real-valued x and v the product distributes over the sum of a
  column's values, after which the two sums are one sum taken in two orders. Finiteness is needed for exactly that
  distributive step. The idealization rewrote nothing, so the kernel is related to its idealization trivially.
-/
import proofs.«412038_j1245540516172_3_alg».proof.Defs
import proofs.«412038_j1245540516172_3_alg».proof.Proof.Gen.Kernel
import proofs.«412038_j1245540516172_3_alg».proof.Proof.Gen.Kernel.Skeleton
import proofs.«412038_j1245540516172_3_alg».proof.Proof.Gen.Kernel.Launch
import proofs.«412038_j1245540516172_3_alg».proof.Proof.Gen.Kernel.Points
import proofs.«412038_j1245540516172_3_alg».proof.Proof.Gen.Kernel.Frame
import proofs.«412038_j1245540516172_3_alg».proof.Proof.Gen.KernelIdeal
import proofs.«412038_j1245540516172_3_alg».proof.Proof.Gen.KernelIdeal.Skeleton
import proofs.«412038_j1245540516172_3_alg».proof.Proof.Gen.KernelIdeal.Launch
import proofs.«412038_j1245540516172_3_alg».proof.Proof.Gen.KernelIdeal.Points
import proofs.«412038_j1245540516172_3_alg».proof.Proof.Gen.KernelIdeal.Frame
import proofs.«412038_j1245540516172_3_alg».proof.Proof.Gen.ReferenceIdeal
import proofs.«412038_j1245540516172_3_alg».proof.Proof.Gen.Pre_finite_inputs
import proofs.«412038_j1245540516172_3_alg».proof.Proof.Gen.KernelIdeal.Value
import proofs.«412038_j1245540516172_3_alg».proof.Proof.Gen.ReferenceIdeal.Run
import proofs.«412038_j1245540516172_3_alg».proof.Proof.Gen.ReferenceIdeal.Read
import proofs.«412038_j1245540516172_3_alg».proof.Proof.KernelValue
import proofs.«412038_j1245540516172_3_alg».proof.Proof.RefValue
import proofs.«412038_j1245540516172_3_alg».proof.Proof.PreFacts
import Idealize.ShloMosaic.Adequacy
import Idealize.ShloMosaic.Init

noncomputable section

namespace Cert.Proof

open Idealize.ShloMosaic Idealize.SL.Sem

/-- The kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result through the dense matrix: the kernel's output array is that function of its
    arguments, and the reference's is the entry-by-entry result of arguments that agree with the kernel's, which the
    precondition makes the same function. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_sparseOut,
    (hagree c).1, (hagree c).2.1, (hagree c).2.2.1, (hagree c).2.2.2.1, (hagree c).2.2.2.2]
  obtain ⟨hx, hv, hr, hc⟩ := Cert.Pre_finite_inputs.Decode.decode _ _ _ _ _ (hpre c)
  exact (Cert.SparseDense.denseOut_eq_sparseOut _ _ _ _ _ hx hv hr hc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
